-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x512 .f32) (main_arg1 : FVec F S64x512 .f32) (main_arg2 : FVec F S64 .f32) (main_arg3 : IVec S3200000 32) (main_arg4 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x64 : Shape := ⟨2, ![1, 64]⟩
abbrev S100000x1 : Shape := ⟨2, ![100000, 1]⟩
abbrev S100000x64 : Shape := ⟨2, ![100000, 64]⟩
abbrev S4000x512 : Shape := ⟨2, ![4000, 512]⟩
abbrev S4000x1 : Shape := ⟨2, ![4000, 1]⟩
abbrev S4000x64 : Shape := ⟨2, ![4000, 64]⟩
abbrev S3200000x64 : Shape := ⟨2, ![3200000, 64]⟩
abbrev S10000x64 : Shape := ⟨2, ![10000, 64]⟩
abbrev S10000x1 : Shape := ⟨2, ![10000, 1]⟩

abbrev nBuf : Space → Nat
  | .hbm => 44
  | .vmem => 18
  | .smem => 0
  | _ => 0

abbrev bufTy : (tb : Table) → Fin (tcTables nBuf tb) → BufTy
  | .hbm, ⟨0, _⟩ => ⟨S100000x512, .f32⟩
  | .hbm, ⟨1, _⟩ => ⟨S64x512, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S_, .f32⟩
  | .hbm, ⟨6, _⟩ => ⟨S3200000, .f32⟩
  | .hbm, ⟨7, _⟩ => ⟨S_, .f32⟩
  | .hbm, ⟨8, _⟩ => ⟨S100000, .f32⟩
  | .hbm, ⟨9, _⟩ => ⟨S3200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S1x64, .f32⟩
  | .hbm, ⟨26, _⟩ => ⟨S100000x1, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x1, .f32⟩
  | .hbm, ⟨43, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S64x512, .f32⟩
  | .local _ .vmem, ⟨3, _⟩ => ⟨S1x64, .f32⟩
  | .local _ .vmem, ⟨4, _⟩ => ⟨S4000x1, .f32⟩
  | .local _ .vmem, ⟨5, _⟩ => ⟨S4000x1, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .f32⟩
  | .local _ .vmem, ⟨13, _⟩ => ⟨S10000x1, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S64_S1x64 : S64.ShapeCasts S1x64
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  scatter_S100000_S3200000x1_S3200000_n_0_0_1_wf : ScatterDims.WF S100000 S3200000x1 S3200000 [] [0] [0] 1
  dot_S4000x512_S64x512_S4000x64_1_1_0_0_n_n_wf : DotDims.WF S4000x512 S64x512 S4000x64 [1] [1] [0] [0] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x512_S64x512_S4000x64_1_1_0_0_n_n : DotDims S4000x512 S64x512 S4000x64 where
  lhsContracting := [1]
  rhsContracting := [1]
  lhsNonContracting := [0]
  rhsNonContracting := [0]
  lhsBatch := []
  rhsBatch := []
  wf := dot_S4000x512_S64x512_S4000x64_1_1_0_0_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S64x512 : Shape := ⟨2, ![64, 512]⟩
abbrev S64 : Shape := ⟨1, ![64]⟩
abbrev S3200000 : Shape := ⟨1, ![3200000]⟩
abbrev S512x64 : Shape := ⟨2, ![512, 64]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x64 : Shape := ⟨2, ![3200000, 64]⟩

abbrev nBuf : Space → Nat
  | .hbm => 56
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S64x512, .f32⟩
  | .hbm, ⟨2, _⟩ => ⟨S64, .f32⟩
  | .hbm, ⟨3, _⟩ => ⟨S3200000, .i32⟩
  | .hbm, ⟨4, _⟩ => ⟨S3200000, .i32⟩
  | .hbm, ⟨5, _⟩ => ⟨S512x64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  transposes_S64x512_S512x64_1_0 : S64x512.Transposes [1, 0] S512x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  dot_S100000x512_S512x64_S100000x64_1_0_0_1_n_n_wf : DotDims.WF S100000x512 S512x64 S100000x64 [1] [0] [0] [1] [] []
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.Spec.lean ====
/-
  The mathematics both programs compute, as three functions read index by index over the extended reals.
  A node feature row `n` and a class `q`:
  * `lin`       — the linear layer: the dot product of row `n` of the features with row `q` of the weights, plus the bias of class `q`;
  * `linScaled` — that value times the source-side degree norm of node `n` (a column vector, read at `(n, 0)`);
  * `blend`     — the teleport blend: `(c₁ · agg) · nd + c₂ · h`, with `c₁`, `c₂` the two literal words the programs share
                   (they are never evaluated: the same words stand on both sides).
  Nothing here depends on a program's run; the shapes are the printed program's.
-/
import proofs.«125284_j29506425323819_1_alg».proof.KernelIdeal
import Idealize.ShloMosaic.PureOps.Ideal
import Idealize.ShloMosaic.Lib.ValueIdx

noncomputable section

open Idealize.ShloMosaic Idealize.ShloMosaic.ValueIdx
open scoped BigOperators

namespace Cert.Appnp

open Cert.KernelIdeal

/-- The linear layer at `(n, q)`: `∑ₖ X[n,k] · W[q,k] + B[0,q]`. -/
def lin (X : FVec Ideal S100000x512 .f32) (Wt : FVec Ideal S64x512 .f32) (B : FVec Ideal S1x64 .f32) :
    FVec Ideal S100000x64 .f32 :=
  fun i => (∑ k : Fin 512, X (ix2 (i 0) k) * Wt (ix2 (i 1) k)) + B (ix2 0 (i 1))

/-- The linear layer scaled row by row: `lin[n,q] · Ns[n,0]`. -/
def linScaled (X : FVec Ideal S100000x512 .f32) (Wt : FVec Ideal S64x512 .f32) (B : FVec Ideal S1x64 .f32)
    (Ns : FVec Ideal S100000x1 .f32) : FVec Ideal S100000x64 .f32 :=
  fun i => lin X Wt B i * Ns (ix2 (i 0) 0)

/-- The two literal words of the blend, read at `Ideal`. -/
abbrev c₁ : Ideal .f32 := Scalar.ofBits (F := Ideal) .f32 0x3F4CCCCD#32
abbrev c₂ : Ideal .f32 := Scalar.ofBits (F := Ideal) .f32 0x3E4CCCCD#32

/-- The blend at `(n, q)`: `(c₁ · agg[n,q]) · nd[n,0] + c₂ · h[n,q]`. -/
def blend (agg : FVec Ideal S100000x64 .f32) (nd : FVec Ideal S100000x1 .f32) (h : FVec Ideal S100000x64 .f32) :
    FVec Ideal S100000x64 .f32 :=
  fun i => (c₁ * agg i) * nd (ix2 (i 0) 0) + c₂ * h i

end Cert.Appnp

end
-- ==== Proof.LinScale.lean ====
/-
  Region 0 of the graph kernel, read as arrays: the linear layer and its row-scaled copy.

  The body at one grid point multiplies a block of 4000 feature rows with the whole weight matrix (both contracted on
  their second axis), adds the bias row, and writes the result to the first output; the second output is that result
  times the block's column of source-side degree norms. The grid's 25 points cut the 100000 rows into consecutive blocks
  of 4000, so the two output arrays end holding `lin` and `linScaled` of the arrays the region found.
-/
import proofs.«125284_j29506425323819_1_alg».proof.Proof.Gen.KernelIdeal.Frame
import proofs.«125284_j29506425323819_1_alg».proof.Proof.Spec
import Idealize.ShloMosaic.Lib.Pipeline.Value
import Idealize.ShloMosaic.PureOps.Ideal.Laws
import Idealize.ShloMosaic.Lib.ValueLayout
import Idealize.ShloMosaic.Lib.ValueIdx

noncomputable section

open Idealize.ShloMosaic Idealize.ShloMosaic.TcCoe Idealize.SL.Sem Idealize.ShloMosaic.ValueIdx
open Idealize.ShloMosaic.Pipeline (Dat)
open scoped BigOperators

namespace Cert.KernelIdeal.Hand

open Cert.KernelIdeal Cert.KernelIdeal.Gen Cert.Appnp

variable (V : (c : Dev nD) → (b : Ref sig .tc) → Buf (Elt Ideal) ((c : Thread nD τ).loc b))

namespace LinScale

/-! ## The body's arithmetic at an index -/

/-- The matrix product's left operand index at output `(p, q)` and contraction position `k`: row `p` … -/
theorem lhs_mm_0 (i : S4000x64.Idx) (q : dot_S4000x512_S64x512_S4000x64_1_1_0_0_n_n.contr.Idx) :
    (dot_S4000x512_S64x512_S4000x64_1_1_0_0_n_n.lhsIdx i q 0).val = (i 0).val := by
  unfold DotDims.lhsIdx
  rw [dif_neg (show ¬(0 : Fin S4000x512.rank) ∈ dot_S4000x512_S64x512_S4000x64_1_1_0_0_n_n.lhsBatch by decide), dif_pos (show (0 : Fin S4000x512.rank) ∈ dot_S4000x512_S64x512_S4000x64_1_1_0_0_n_n.lhsNonContracting by decide)]
  rfl
/-- … column `k`. -/
theorem lhs_mm_1 (i : S4000x64.Idx) (q : dot_S4000x512_S64x512_S4000x64_1_1_0_0_n_n.contr.Idx) :
    (dot_S4000x512_S64x512_S4000x64_1_1_0_0_n_n.lhsIdx i q 1).val = (q ⟨0, by decide⟩).val :=
  dot_S4000x512_S64x512_S4000x64_1_1_0_0_n_n.lhsIdx_val_of_single rfl i q
/-- The right operand (the weights, one row per class) is read at row `q` … -/
theorem rhs_mm_0 (i : S4000x64.Idx) (q : dot_S4000x512_S64x512_S4000x64_1_1_0_0_n_n.contr.Idx) :
    (dot_S4000x512_S64x512_S4000x64_1_1_0_0_n_n.rhsIdx i q 0).val = (i 1).val := by
  unfold DotDims.rhsIdx
  rw [dif_neg (show ¬(0 : Fin S64x512.rank) ∈ dot_S4000x512_S64x512_S4000x64_1_1_0_0_n_n.rhsBatch by decide), dif_pos (show (0 : Fin S64x512.rank) ∈ dot_S4000x512_S64x512_S4000x64_1_1_0_0_n_n.rhsNonContracting by decide)]
  rfl
/-- … column `k`. -/
theorem rhs_mm_1 (i : S4000x64.Idx) (q : dot_S4000x512_S64x512_S4000x64_1_1_0_0_n_n.contr.Idx) :
    (dot_S4000x512_S64x512_S4000x64_1_1_0_0_n_n.rhsIdx i q 1).val = (q ⟨0, by decide⟩).val :=
  dot_S4000x512_S64x512_S4000x64_1_1_0_0_n_n.rhsIdx_val_of_single rfl i q

/-- The matrix product into a zero accumulator, at `(p, q)`: `∑ₖ a[p,k] · b[q,k]`. -/
theorem mm_apply (a : FVec Ideal S4000x512 .bf16) (b : FVec Ideal S64x512 .bf16) (p : Fin 4000) (q : Fin 64) :
    matmul (F := Ideal) dot_S4000x512_S64x512_S4000x64_1_1_0_0_n_n none a b (constant (F := Ideal) S4000x64 .f32 0x00000000#32) (ix2 p q)
      = ∑ k : Fin 512, a (ix2 p k) * b (ix2 q k) := by
  simp only [matmul]
  rw [Ideal.matmul_constant_zero_apply, ← Equiv.sum_comp (contrEquiv1 dot_S4000x512_S64x512_S4000x64_1_1_0_0_n_n 512 rfl rfl).symm]
  refine Finset.sum_congr rfl fun k _ => ?_
  have hk := contrEquiv1_symm_val dot_S4000x512_S64x512_S4000x64_1_1_0_0_n_n 512 rfl rfl k
  have el : dot_S4000x512_S64x512_S4000x64_1_1_0_0_n_n.lhsIdx (ix2 p q) ((contrEquiv1 dot_S4000x512_S64x512_S4000x64_1_1_0_0_n_n 512 rfl rfl).symm k) = ix2 p k := funext fun a => Fin.ext (by
    match a with
    | ⟨0, _⟩ => exact lhs_mm_0 _ _
    | ⟨1, _⟩ => exact (lhs_mm_1 _ _).trans hk)
  have er : dot_S4000x512_S64x512_S4000x64_1_1_0_0_n_n.rhsIdx (ix2 p q) ((contrEquiv1 dot_S4000x512_S64x512_S4000x64_1_1_0_0_n_n 512 rfl rfl).symm k) = ix2 q k := funext fun a => Fin.ext (by
    match a with
    | ⟨0, _⟩ => exact rhs_mm_0 _ _
    | ⟨1, _⟩ => exact (rhs_mm_1 _ _).trans hk)
  rw [el, er]

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload at `(p, q)`: the block's row `p` against the weights' row `q`, plus the bias of class `q`. -/
theorem pay1_apply (x0 : Vec Ideal S4000x512 .f32) (x1 : Vec Ideal S64x512 .f32) (x2 : Vec Ideal S1x64 .f32)
    (p : Fin 4000) (q : Fin 64) :
    k0_pay1 x0 x1 x2 (ix2 p q) = (∑ k : Fin 512, x0 (ix2 p k) * x1 (ix2 q k)) + x2 (ix2 0 q) := by
  unfold k0_pay1
  rw [addf_apply, mm_apply, shapeCast_self, broadcastTo_1b_ab_apply]
  rfl

/-- The second payload at `(p, q)`: the first times the degree norm of row `p`. -/
theorem pay2_apply (x0 : Vec Ideal S4000x512 .f32) (x1 : Vec Ideal S64x512 .f32) (x2 : Vec Ideal S1x64 .f32)
    (x3 : Vec Ideal S4000x1 .f32) (p : Fin 4000) (q : Fin 64) :
    k0_pay2 x0 x1 x2 x3 (ix2 p q) = ((∑ k : Fin 512, x0 (ix2 p k) * x1 (ix2 q k)) + x2 (ix2 0 q)) * x3 (ix2 p 0) := by
  unfold k0_pay2
  rw [mulf_apply, pay1_apply, shapeCast_self, broadcastTo_a1_ab_apply]

/-! ## The blocks a grid point reads and writes -/

theorem hz : (![0, 0] : Fin 2 → Nat) = fun _ => 0 := funext fun a => by fin_cases a <;> rfl

/-- The printed index maps over the grid: the row-blocked windows (features, degree norms, both outputs) sit at block
    `(t, 0)`, the weights and the bias at block `(0, 0)`. -/
theorem idx_facts0 : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block of point `t` at `(p, k)` is the feature array at row `t · 4000 + p`. -/
theorem read_x (c : Dev nD) (t : Fin cfg0.N) (p : Fin 4000) (k : Fin 512) (n : Fin 100000) (hn : n.val = t.val * 4000 + p.val) :
    iblk0 V c 0 t (ix2 p k) = V c main_arg0 (ix2 n k) := by
  obtain ⟨e0, e1, -⟩ := idx_facts0 t
  show V c main_arg0 (((cfg0.win 0).blk t).view.emb (ix2 p k)) = V c main_arg0 (ix2 n k)
  refine congrArg _ (funext fun a => Fin.ext ?_)
  match a with
  | ⟨0, _⟩ => show win0_0.index t (0 : Fin 2) * 4000 + 1 * p.val = n.val; omega
  | ⟨1, _⟩ => show win0_0.index t (1 : Fin 2) * 512 + 1 * k.val = k.val; omega

/-- The weight block of every point is the whole weight array. -/
theorem read_w (c : Dev nD) (t : Fin cfg0.N) (q : Fin 64) (k : Fin 512) :
    iblk0 V c 1 t (ix2 q k) = V c main_arg1 (ix2 q k) := by
  obtain ⟨-, -, e0, e1, -⟩ := idx_facts0 t
  show V c main_arg1 (((cfg0.win 1).blk t).view.emb (ix2 q k)) = V c main_arg1 (ix2 q k)
  refine congrArg _ (funext fun a => Fin.ext ?_)
  match a with
  | ⟨0, _⟩ => show win0_1.index t (0 : Fin 2) * 64 + 1 * q.val = q.val; omega
  | ⟨1, _⟩ => show win0_1.index t (1 : Fin 2) * 512 + 1 * k.val = k.val; omega

/-- The bias block of every point is the whole bias row. -/
theorem read_b (c : Dev nD) (t : Fin cfg0.N) (z : Fin 1) (q : Fin 64) :
    iblk0 V c 2 t (ix2 z q) = V c main_v11 (ix2 z q) := by
  obtain ⟨-, -, -, -, e0, e1, -⟩ := idx_facts0 t
  show V c main_v11 (((cfg0.win 2).blk t).view.emb (ix2 z q)) = V c main_v11 (ix2 z q)
  refine congrArg _ (funext fun a => Fin.ext ?_)
  match a with
  | ⟨0, _⟩ => show win0_2.index t (0 : Fin 2) * 1 + 1 * z.val = z.val; omega
  | ⟨1, _⟩ => show win0_2.index t (1 : Fin 2) * 64 + 1 * q.val = q.val; omega

/-- The degree-norm block of point `t` at `(p, 0)` is the norm column at row `t · 4000 + p`. -/
theorem read_s (c : Dev nD) (t : Fin cfg0.N) (p : Fin 4000) (z : Fin 1) (n : Fin 100000) (hn : n.val = t.val * 4000 + p.val) :
    iblk0 V c 3 t (ix2 p z) = V c main_v12 (ix2 n z) := by
  obtain ⟨-, -, -, -, -, -, e0, e1, -⟩ := idx_facts0 t
  show V c main_v12 (((cfg0.win 3).blk t).view.emb (ix2 p z)) = V c main_v12 (ix2 n z)
  refine congrArg _ (funext fun a => Fin.ext ?_)
  match a with
  | ⟨0, _⟩ => show win0_3.index t (0 : Fin 2) * 4000 + 1 * p.val = n.val; omega
  | ⟨1, _⟩ => show win0_3.index t (1 : Fin 2) * 1 + 1 * z.val = z.val; omega

/-- A grid point is one of 25. -/
theorem point_lt (t : Fin cfg0.N) : t.val < 25 := Nat.lt_of_lt_of_eq t.isLt N_0

/-- Index `(p, q)` of point `t`'s block of the first output is the array's `(t · 4000 + p, q)`. -/
theorem emb_out4 (t : Fin cfg0.N) (p : Fin 4000) (q : Fin 64) (n : Fin 100000) (hn : n.val = t.val * 4000 + p.val) :
    ((cfg0.win 4).blk t).view.emb (ix2 p q) = ix2 n q := by
  obtain ⟨-, -, -, -, -, -, -, -, e0, e1, -⟩ := idx_facts0 t
  refine funext fun a => Fin.ext ?_
  match a with
  | ⟨0, _⟩ => show win0_4.index t (0 : Fin 2) * 4000 + 1 * p.val = n.val; omega
  | ⟨1, _⟩ => show win0_4.index t (1 : Fin 2) * 64 + 1 * q.val = q.val; omega

/-- The same for the second output. -/
theorem emb_out5 (t : Fin cfg0.N) (p : Fin 4000) (q : Fin 64) (n : Fin 100000) (hn : n.val = t.val * 4000 + p.val) :
    ((cfg0.win 5).blk t).view.emb (ix2 p q) = ix2 n q := by
  obtain ⟨-, -, -, -, -, -, -, -, -, -, e0, e1⟩ := idx_facts0 t
  refine funext fun a => Fin.ext ?_
  match a with
  | ⟨0, _⟩ => show win0_5.index t (0 : Fin 2) * 4000 + 1 * p.val = n.val; omega
  | ⟨1, _⟩ => show win0_5.index t (1 : Fin 2) * 64 + 1 * q.val = q.val; omega

/-- WHAT POINT `t` WRITES BACK to the first output is block `t` of the linear layer of the arrays the region found. -/
theorem flushed4_eq (c : Dev nD) (t : Fin cfg0.N) :
    (dat0 V c).flushed 4 t = ((cfg0.win 4).blk t).view.read (Elt Ideal) (lin (V c main_arg0) (V c main_arg1) (V c main_v11)) := by
  show (cfg0.win 4).cut (grid0.coords t) ((dat0 V c).after 4 t) = _
  rw [after0_4]
  unfold out0_4
  rw [View.canon_unit_zero hz]
  simp only [View.ld_unit_zero (S := S4000x512) hz, View.ld_unit_zero (S := S64x512) hz, View.ld_unit_zero (S := S1x64) hz]
  refine funext fun (y : S4000x64.Idx) => ?_
  obtain ⟨p, q, rfl⟩ : ∃ (p : Fin 4000) (q : Fin 64), y = ix2 p q := ⟨y 0, y 1, eq_ix2 y⟩
  have ht := point_lt t
  show k0_pay1 (iblk0 V c 0 t) (iblk0 V c 1 t) (iblk0 V c 2 t) (ix2 p q)
    = lin (V c main_arg0) (V c main_arg1) (V c main_v11) (((cfg0.win 4).blk t).view.emb (ix2 p q))
  rw [pay1_apply, emb_out4 t p q ⟨t.val * 4000 + p.val, by omega⟩ rfl]
  unfold lin
  rw [read_b]
  refine congrArg₂ (· + ·) (Finset.sum_congr rfl fun k _ => ?_) rfl
  rw [read_x V c t p k ⟨t.val * 4000 + p.val, by omega⟩ rfl, read_w]

/-- WHAT POINT `t` WRITES BACK to the second output is block `t` of the row-scaled linear layer. -/
theorem flushed5_eq (c : Dev nD) (t : Fin cfg0.N) :
    (dat0 V c).flushed 5 t = ((cfg0.win 5).blk t).view.read (Elt Ideal) (linScaled (V c main_arg0) (V c main_arg1) (V c main_v11) (V c main_v12)) := by
  show (cfg0.win 5).cut (grid0.coords t) ((dat0 V c).after 5 t) = _
  rw [after0_5]
  unfold out0_5
  rw [View.canon_unit_zero hz]
  simp only [View.ld_unit_zero (S := S4000x512) hz, View.ld_unit_zero (S := S64x512) hz, View.ld_unit_zero (S := S1x64) hz, View.ld_unit_zero (S := S4000x1) hz]
  refine funext fun (y : S4000x64.Idx) => ?_
  obtain ⟨p, q, rfl⟩ : ∃ (p : Fin 4000) (q : Fin 64), y = ix2 p q := ⟨y 0, y 1, eq_ix2 y⟩
  have ht := point_lt t
  show k0_pay2 (iblk0 V c 0 t) (iblk0 V c 1 t) (iblk0 V c 2 t) (iblk0 V c 3 t) (ix2 p q)
    = linScaled (V c main_arg0) (V c main_arg1) (V c main_v11) (V c main_v12) (((cfg0.win 5).blk t).view.emb (ix2 p q))
  rw [pay2_apply, emb_out5 t p q ⟨t.val * 4000 + p.val, by omega⟩ rfl]
  unfold linScaled lin
  rw [read_b, read_s V c t p 0 ⟨t.val * 4000 + p.val, by omega⟩ rfl]
  refine congrArg₂ (· * ·) (congrArg₂ (· + ·) (Finset.sum_congr rfl fun k _ => ?_) rfl) rfl
  rw [read_x V c t p k ⟨t.val * 4000 + p.val, by omega⟩ rfl, read_w]

/-! ## From blocks to the arrays -/

/-- An index of the first output is in point `t`'s block iff each coordinate is in the block's range on its axis. -/
theorem mem_blk4 (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v13_0).slice (win0_4.rect t)).set ↔ _
  rw [View.set_slice_whole, Rect.mem_set_unit]
  exact Iff.rfl

/-- The same for the second output. -/
theorem mem_blk5 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v13_1).slice (win0_5.rect t)).set ↔ _
  rw [View.set_slice_whole, Rect.mem_set_unit]
  exact Iff.rfl

/-- Row `r` of the first output is in the block of point `r / 4000`: the 25 blocks of 4000 rows fill the 100000. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, e0, e1, -⟩ := idx_facts0 t
  refine ⟨t, flush0_4 t, ?_⟩
  rw [mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- The same for the second output. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, -, -, -, -, e0, e1⟩ := idx_facts0 t
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

end LinScale

/-- THE FIRST OUTPUT after the region: the linear layer of the arrays the region found. -/
theorem final0_4 (c : Dev nD) : (dat0 V c).arrAt 4 cfg0.N = lin (V c main_arg0) (V c main_arg1) (V c main_v11) :=
  (dat0 V c).arrAt_eq_of_cover 4 (lin (V c main_arg0) (V c main_arg1) (V c main_v11)) (fun t _ => LinScale.flushed4_eq V c t) LinScale.cover4

/-- THE SECOND OUTPUT after the region: the linear layer scaled row by row by the degree norms. -/
theorem final0_5 (c : Dev nD) : (dat0 V c).arrAt 5 cfg0.N = linScaled (V c main_arg0) (V c main_arg1) (V c main_v11) (V c main_v12) :=
  (dat0 V c).arrAt_eq_of_cover 5 (linScaled (V c main_arg0) (V c main_arg1) (V c main_v11) (V c main_v12)) (fun t _ => LinScale.flushed5_eq V c t) LinScale.cover5

end Cert.KernelIdeal.Hand

end
-- ==== Proof.LibColumn.lean ====
/-
  A column read at an index, for any extents.

  A column `[a, 1]` broadcast across the columns of `[a, b]` reads, at `(p, q)`, the column at `(p, 0)`, whether the
  broadcast is the vector form or the host's `broadcast_in_dim` along both axes. A vector `[a]` made a column `[a, 1]`,
  by a reshape or by a `broadcast_in_dim` along axis 0, reads at `(p, 0)` the vector at `p`: so the two ways of making
  the column give one and the same column.
-/
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- A column `[a, 1]` broadcast across the columns of `[a, b]`: at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) :=
  broadcastTo_apply v h (ix2 p q) (ix2 p (0 : Fin 1)) fun ax => by
    match ax with
    | ⟨0, _⟩ =>
      show p.val = if a = 1 then 0 else p.val
      split
      · have := p.isLt; omega
      · rfl
    | ⟨1, _⟩ => rfl

/-- The host's form of the same: `broadcast_in_dim` of a column `[a, 1]` along both axes, at `(p, q)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- A vector `[a]` reshaped to a column `[a, 1]`: at `(p, 0)`, the vector at `p`. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h _ _ ?_
  rw [Shape.rowMajor_val_one, Shape.rowMajor_val_two]
  show p.val = p.val * 1 + z.val
  have := z.isLt
  omega

/-- A vector `[a]` made a column `[a, 1]` by `broadcast_in_dim` along axis 0: at `(p, 0)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) :=
  broadcastInDim_apply ![0] h v (ix2 p z) (ix1 p) fun ax => by
    match ax with
    | ⟨0, _⟩ =>
      show p.val = if a = 1 then 0 else p.val
      split
      · have := p.isLt; omega
      · rfl

/-- So the reshape and the `broadcast_in_dim` make the same column. -/
theorem shapeCast_eq_broadcastInDim_column {a : ℕ} (v : (⟨1, ![a]⟩ : Shape).Idx → α)
    (h₁ : (⟨1, ![a]⟩ : Shape).ShapeCasts ⟨2, ![a, 1]⟩) (h₂ : (⟨1, ![a]⟩ : Shape).BroadcastsInDim ⟨2, ![a, 1]⟩ ![0]) :
    shapeCast ⟨2, ![a, 1]⟩ v h₁ = broadcastInDim ⟨2, ![a, 1]⟩ ![0] h₂ v := by
  funext j
  obtain ⟨p, z, rfl⟩ : ∃ (p : Fin a) (z : Fin 1), j = ix2 p z := ⟨j 0, j 1, eq_ix2 j⟩
  rw [shapeCast_a_a1_apply, broadcastInDim_a_a1_apply]

end Cert.LibColumn

end
-- ==== Proof.Blend.lean ====
/-
  The blend region, read as one function of the arrays it finds.

  The region walks the `100000 × 64` result in ten blocks of `10000` rows. At point `t` it reads rows
  `10000·t … 10000·t + 9999` of the aggregate, of the destination-side degree norm (a column) and of the linear layer's
  output, and writes back, at row `p` of the block and class `q`,
  `(c₁ · agg) · nd + c₂ · h` taken at row `10000·t + p`. Every row of the result lies in exactly the block of point
  `row / 10000`, and every point writes its block back, so after the region the result array is `blend` of the three
  arrays, index by index.
-/
import proofs.«125284_j29506425323819_1_alg».proof.Proof.Gen.KernelIdeal.Frame
import proofs.«125284_j29506425323819_1_alg».proof.Proof.Spec
import proofs.«125284_j29506425323819_1_alg».proof.Proof.LibColumn
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blend

open Cert.KernelIdeal Cert.KernelIdeal.Gen Cert.Appnp Cert.LibColumn

variable (V : (c : Dev nD) → (b : Ref sig .tc) → Buf (Elt Ideal) ((c : Thread nD τ).loc b))

theorem zero2 : (![0, 0] : Fin 2 → Nat) = fun _ => 0 := funext fun a => by fin_cases a <;> rfl

/-- The body's arithmetic at row `p`, class `q` of a block: the aggregate scaled by `c₁`, times the norm column at row
    `p`, plus `c₂` times the linear layer's value. -/
theorem pay_apply (x0 : Vec Ideal S10000x64 .f32) (x1 : Vec Ideal S10000x1 .f32) (x2 : Vec Ideal S10000x64 .f32)
    (p : Fin 10000) (q : Fin 64) :
    k1_pay1 x0 x1 x2 (ix2 p q) = (c₁ * x0 (ix2 p q)) * x1 (ix2 p (0 : Fin 1)) + c₂ * x2 (ix2 p q) := by
  unfold k1_pay1
  rw [addf_apply, mulf_apply, mulf_apply, mulf_apply, broadcast_apply, broadcast_apply,
    shapeCast_self, shapeCast_self, shapeCast_self, broadcastTo_a1_ab_apply]

/-- Every window of the region moves with the point along the rows and stays at column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 10 := lt_of_lt_of_eq t.isLt N_1

/-- Row `p` of the aggregate's block at point `t` is row `10000·t + p` of the aggregate. -/
theorem agg_block (c : Dev nD) (t : Fin cfg1.N) (p : Fin 10000) (q : Fin 64) (h : 10000 * t.val + p.val < 100000) :
    (iblk1 V c 0 t : Vec Ideal S10000x64 .f32) (ix2 p q)
      = (V c main_v23 : Vec Ideal S100000x64 .f32) (ix2 ⟨10000 * t.val + p.val, h⟩ q) := by
  unfold iblk1
  rw [View.read_apply]
  show V c main_v23 _ = V c main_v23 _
  refine congrArg _ (funext fun a => Fin.ext ?_)
  obtain ⟨e0, e1, -⟩ := idx_facts t
  match a with
  | ⟨0, _⟩ => show win1_0.index t (0 : Fin 2) * 10000 + 1 * p.val = 10000 * t.val + p.val; rw [e0]; omega
  | ⟨1, _⟩ => show win1_0.index t (1 : Fin 2) * 64 + 1 * q.val = q.val; rw [e1]; omega

/-- Row `p` of the norm column's block at point `t` is row `10000·t + p` of the column. -/
theorem norm_block (c : Dev nD) (t : Fin cfg1.N) (p : Fin 10000) (z : Fin 1) (h : 10000 * t.val + p.val < 100000) :
    (iblk1 V c 1 t : Vec Ideal S10000x1 .f32) (ix2 p z)
      = (V c main_v24 : Vec Ideal S100000x1 .f32) (ix2 ⟨10000 * t.val + p.val, h⟩ z) := by
  unfold iblk1
  rw [View.read_apply]
  show V c main_v24 _ = V c main_v24 _
  refine congrArg _ (funext fun a => Fin.ext ?_)
  obtain ⟨-, -, e0, e1, -⟩ := idx_facts t
  match a with
  | ⟨0, _⟩ => show win1_1.index t (0 : Fin 2) * 10000 + 1 * p.val = 10000 * t.val + p.val; rw [e0]; omega
  | ⟨1, _⟩ => show win1_1.index t (1 : Fin 2) * 1 + 1 * z.val = z.val; rw [e1]; omega

/-- Row `p` of the linear layer's block at point `t` is row `10000·t + p` of the linear layer's output. -/
theorem lin_block (c : Dev nD) (t : Fin cfg1.N) (p : Fin 10000) (q : Fin 64) (h : 10000 * t.val + p.val < 100000) :
    (iblk1 V c 2 t : Vec Ideal S10000x64 .f32) (ix2 p q)
      = (V c main_v13_0 : Vec Ideal S100000x64 .f32) (ix2 ⟨10000 * t.val + p.val, h⟩ q) := by
  unfold iblk1
  rw [View.read_apply]
  show V c main_v13_0 _ = V c main_v13_0 _
  refine congrArg _ (funext fun a => Fin.ext ?_)
  obtain ⟨-, -, -, -, e0, e1, -⟩ := idx_facts t
  match a with
  | ⟨0, _⟩ => show win1_2.index t (0 : Fin 2) * 10000 + 1 * p.val = 10000 * t.val + p.val; rw [e0]; omega
  | ⟨1, _⟩ => show win1_2.index t (1 : Fin 2) * 64 + 1 * q.val = q.val; rw [e1]; omega

/-- Where row `p`, class `q` of the result's block at point `t` sits in the result array. -/
theorem out_emb (t : Fin cfg1.N) (p : Fin 10000) (q : Fin 64) (h : 10000 * t.val + p.val < 100000) :
    (((cfg1.win 3).blk t).view.emb (ix2 p q) : S100000x64.Idx) = ix2 ⟨10000 * t.val + p.val, h⟩ q := by
  refine funext fun a => Fin.ext ?_
  obtain ⟨-, -, -, -, -, -, e0, e1⟩ := idx_facts t
  match a with
  | ⟨0, _⟩ => show win1_3.index t (0 : Fin 2) * 10000 + 1 * p.val = 10000 * t.val + p.val; rw [e0]; omega
  | ⟨1, _⟩ => show win1_3.index t (1 : Fin 2) * 64 + 1 * q.val = q.val; rw [e1]; omega

/-- What point `t` writes back is block `t` of `blend` of the arrays the region finds. -/
theorem flushed_eq (c : Dev nD) (t : Fin cfg1.N) :
    (dat1 V c).flushed 3 t = ((cfg1.win 3).blk t).view.read (Elt Ideal) (blend (V c main_v23) (V c main_v24) (V c main_v13_0)) := by
  show (cfg1.win 3).cut (grid1.coords t) ((dat1 V c).after 3 t) = _
  rw [after1_3]
  unfold out1_3
  rw [View.canon_unit_zero zero2]
  simp only [View.ld_unit_zero (S := S10000x64) zero2, View.ld_unit_zero (S := S10000x1) zero2]
  funext y
  obtain ⟨p, q, rfl⟩ : ∃ (p : Fin 10000) (q : Fin 64), y = ix2 p q := ⟨y 0, y 1, eq_ix2 y⟩
  have h : 10000 * t.val + p.val < 100000 := by have := point_lt t; have := p.isLt; omega
  rw [View.read_apply, out_emb t p q h]
  refine (pay_apply (iblk1 V c 0 t) (iblk1 V c 1 t) (iblk1 V c 2 t) p q).trans ?_
  rw [agg_block V c t p q h, norm_block V c t p 0 h, lin_block V c t p q h]
  rfl

/-- An index of the result is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v25).slice (win1_3.rect t)).set ↔ _
  rw [View.set_slice_whole, Rect.mem_set_unit]
  exact Iff.rfl

/-- Row `r` of the result is in the block of point `r / 10000`, which is written back. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_3 _, ?_⟩
  rw [mem_blk]
  obtain ⟨-, -, -, -, -, -, e0, e1⟩ := idx_facts ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e0]
    show (i 0).val / 10000 * 10000 ≤ (i 0).val ∧ (i 0).val < (i 0).val / 10000 * 10000 + 10000
    omega
  | ⟨1, _⟩ =>
    show win1_3.index _ (1 : Fin 2) * 64 ≤ (i 1).val ∧ (i 1).val < win1_3.index _ (1 : Fin 2) * 64 + 64
    rw [e1]
    omega

/-- After the region the result array is `blend` of the aggregate, the norm column and the linear layer's output as the
    region found them. -/
theorem final1_3 (c : Dev nD) :
    (dat1 V c).arrAt 3 cfg1.N = blend (V c main_v23) (V c main_v24) (V c main_v13_0) :=
  (dat1 V c).arrAt_eq_of_cover 3 _ (fun t _ => flushed_eq V c t) cover

end Cert.KernelIdeal.Blend

end
-- ==== Proof.HostChain.lean ====
/-
  The kernel's result array as one function of the launch arguments.

  The program runs host operations, the linear-layer region, more host operations, and the blend region. Read back from
  the end: the result array is `blend` of what the last region finds in three arrays; of those, the aggregate is the
  scatter-add, by destination, of the rows gathered by (wrapped) source from the scaled linear layer the first region left;
  the norm column is the destination-side degree norm made a column; and the third is the first region's plain output.
  The first region finds the features and weights as launched, the bias made a row, and the source-side degree norm made a
  column. The degree norm of an index vector is `rsqrt (max 1 (count of each node among the indices))`; it, the wrapped
  index and the gather and scatter-add are carried as whole terms and never opened: the reference applies the same ones.
-/
import proofs.«125284_j29506425323819_1_alg».proof.Proof.Gen.KernelIdeal.Frame
import proofs.«125284_j29506425323819_1_alg».proof.Proof.Spec
import proofs.«125284_j29506425323819_1_alg».proof.Proof.Blend
import Idealize.ShloMosaic.Lib.StableHlo.Run

noncomputable section

open Idealize.ShloMosaic Idealize.ShloMosaic.TcCoe Idealize.SL.Sem Idealize.ShloMosaic.StableHlo

namespace Cert.KernelIdeal.Chain

open Cert.KernelIdeal Cert.KernelIdeal.Gen Cert.Appnp

section AnyValues

variable {F : FTy → Type} [FloatOps F]

/-- The degree norm of an index vector: one over the square root of each node's count among the indices, the count
    clamped below by one. -/
def degNorm (ix : IVec S3200000 32) : FVec F S100000 .f32 :=
  Host.rsqrt (maximumf (broadcastInDim S100000 ![] bcast_S_S100000 (id (constant (F := F) S_ .f32 0x3F800000#32)))
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 ix)
      (broadcastInDim S3200000 ![] bcast_S_S3200000 (constant (F := F) S_ .f32 0x3F800000#32))))

/-- The source indices as the gather takes them: a negative index moved up by the number of nodes, as a column. -/
def wrapped (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The propagation step on an array of node rows: gather the rows by source, scatter-add them by destination. -/
def aggregate (src dst : IVec S3200000 32) (A : FVec F S100000x64 .f32) : FVec F S100000x64 .f32 :=
  Host.scatterAdd scatter_S100000x64_S3200000x1_S3200000x64_1_0_0_1
    (broadcastInDim S100000x64 ![] bcast_S_S100000x64 (constant (F := F) S_ .f32 0x00000000#32))
    (broadcastInDim S3200000x1 ![0] bcast_S3200000_S3200000x1_0 dst)
    (Host.gather gather_S100000x64_S3200000x1_S3200000x64_1_0_n_n_0_1_164 A (wrapped src))

variable (m : (ℓ : Loc nD τ sig) → Buf (Elt F) ℓ) (ρ : Dev nD → PrngReg)

/-! ## What the first region finds -/

theorem W5_arg0 (c : Dev nD) : W5 m ρ c (Proc.devRef .tc main_arg0) = m ((c : Thread nD τ).loc main_arg0) := by
  dsimp only [W5, W4, W3, W2, W1, hostOps0, hostOps0_1, hostOps0_2, hostOps0_3, hostOps0_4]
  after_results

theorem W5_arg1 (c : Dev nD) : W5 m ρ c (Proc.devRef .tc main_arg1) = m ((c : Thread nD τ).loc main_arg1) := by
  dsimp only [W5, W4, W3, W2, W1, hostOps0, hostOps0_1, hostOps0_2, hostOps0_3, hostOps0_4]
  after_results

theorem W5_arg3 (c : Dev nD) : W5 m ρ c (Proc.devRef .tc main_arg3) = m ((c : Thread nD τ).loc main_arg3) := by
  dsimp only [W5, W4, W3, W2, W1, hostOps0, hostOps0_1, hostOps0_2, hostOps0_3, hostOps0_4]
  after_results

theorem W5_arg4 (c : Dev nD) : W5 m ρ c (Proc.devRef .tc main_arg4) = m ((c : Thread nD τ).loc main_arg4) := by
  dsimp only [W5, W4, W3, W2, W1, hostOps0, hostOps0_1, hostOps0_2, hostOps0_3, hostOps0_4]
  after_results

/-- The bias, made a row. -/
theorem W5_v11 (c : Dev nD) : W5 m ρ c (Proc.devRef .tc main_v11)
    = shapeCast S1x64 (m ((c : Thread nD τ).loc main_arg2)) shapeCasts_S64_S1x64 := by
  dsimp only [W5, W4, W3, W2, W1, hostOps0, hostOps0_1, hostOps0_2, hostOps0_3, hostOps0_4]
  after_results
  rfl

/-- The source-side degree norm, made a column. -/
theorem W5_v12 (c : Dev nD) : W5 m ρ c (Proc.devRef .tc main_v12)
    = shapeCast S100000x1 (degNorm (F := F) (m ((c : Thread nD τ).loc main_arg3))) shapeCasts_S100000_S100000x1 := by
  unfold degNorm
  dsimp only [W5, W4, W3, W2, W1, hostOps0, hostOps0_1, hostOps0_2, hostOps0_3, hostOps0_4]
  after_results
  rfl

/-- The destination-side degree norm. -/
theorem W5_v10 (c : Dev nD) : W5 m ρ c (Proc.devRef .tc main_v10) = degNorm (F := F) (m ((c : Thread nD τ).loc main_arg4)) := by
  unfold degNorm
  dsimp only [W5, W4, W3, W2, W1, hostOps0, hostOps0_1, hostOps0_2, hostOps0_3, hostOps0_4]
  after_results
  rfl

/-- The first region writes none of these. -/
theorem W6_arg3 (c : Dev nD) : W6 m ρ c (Proc.devRef .tc main_arg3) = m ((c : Thread nD τ).loc main_arg3) :=
  (W6_of_ne m ρ c main_arg3 (by decide)).trans (W5_arg3 m ρ c)
theorem W6_arg4 (c : Dev nD) : W6 m ρ c (Proc.devRef .tc main_arg4) = m ((c : Thread nD τ).loc main_arg4) :=
  (W6_of_ne m ρ c main_arg4 (by decide)).trans (W5_arg4 m ρ c)
theorem W6_v10 (c : Dev nD) : W6 m ρ c (Proc.devRef .tc main_v10) = degNorm (F := F) (m ((c : Thread nD τ).loc main_arg4)) :=
  (W6_of_ne m ρ c main_v10 (by decide)).trans (W5_v10 m ρ c)

/-! ## What the second region finds -/

theorem W7_v23 (c : Dev nD) : W7 m ρ c (Proc.devRef .tc main_v23)
    = aggregate (F := F) (W6 m ρ c (Proc.devRef .tc main_arg3)) (W6 m ρ c (Proc.devRef .tc main_arg4)) (W6 m ρ c (Proc.devRef .tc main_v13_1)) := by
  unfold aggregate wrapped
  dsimp only [W7, hostOps1]
  after_results

theorem W7_v24 (c : Dev nD) : W7 m ρ c (Proc.devRef .tc main_v24)
    = shapeCast S100000x1 (W6 m ρ c (Proc.devRef .tc main_v10)) shapeCasts_S100000_S100000x1 := by
  dsimp only [W7, hostOps1]
  after_results
  rfl

theorem W7_v13_0 (c : Dev nD) : W7 m ρ c (Proc.devRef .tc main_v13_0) = W6 m ρ c (Proc.devRef .tc main_v13_0) := by
  dsimp only [W7, hostOps1]
  after_results

end AnyValues

/-- The whole result: the blend of the aggregate of the scaled linear layer, the destination-side norm column, and the
    linear layer. -/
def result (X : FVec Ideal S100000x512 .f32) (Wt : FVec Ideal S64x512 .f32) (b : FVec Ideal S64 .f32)
    (src dst : IVec S3200000 32) : FVec Ideal S100000x64 .f32 :=
  blend
    (aggregate (F := Ideal) src dst (linScaled X Wt (shapeCast S1x64 b shapeCasts_S64_S1x64)
      (shapeCast S100000x1 (degNorm (F := Ideal) src) shapeCasts_S100000_S100000x1)))
    (shapeCast S100000x1 (degNorm (F := Ideal) dst) shapeCasts_S100000_S100000x1)
    (lin X Wt (shapeCast S1x64 b shapeCasts_S64_S1x64))

variable (m : (ℓ : Loc nD τ sig) → Buf (Elt Ideal) ℓ) (ρ : Dev nD → PrngReg)

/-! ## What the first region leaves -/

section FirstRegion

variable
  (h4 : ∀ (V : (c : Dev nD) → (b : Ref sig .tc) → Buf (Elt Ideal) ((c : Thread nD τ).loc b)) (c : Dev nD),
    (dat0 V c).arrAt 4 cfg0.N = lin (V c main_arg0) (V c main_arg1) (V c main_v11))
  (h5 : ∀ (V : (c : Dev nD) → (b : Ref sig .tc) → Buf (Elt Ideal) ((c : Thread nD τ).loc b)) (c : Dev nD),
    (dat0 V c).arrAt 5 cfg0.N = linScaled (V c main_arg0) (V c main_arg1) (V c main_v11) (V c main_v12))

include h4 in
/-- The linear layer of the launch arguments. -/
theorem W6_v13_0 (c : Dev nD) : W6 m ρ c (Proc.devRef .tc main_v13_0)
    = lin (m ((c : Thread nD τ).loc main_arg0)) (m ((c : Thread nD τ).loc main_arg1))
        (shapeCast S1x64 (m ((c : Thread nD τ).loc main_arg2)) shapeCasts_S64_S1x64) := by
  refine (W6_arr m ρ c 4).trans ((h4 (V5 m ρ) c).trans ?_)
  show lin (W5 m ρ c (Proc.devRef .tc main_arg0)) (W5 m ρ c (Proc.devRef .tc main_arg1)) (W5 m ρ c (Proc.devRef .tc main_v11)) = _
  rw [W5_arg0, W5_arg1, W5_v11]

include h5 in
/-- The linear layer scaled by the source-side degree norm. -/
theorem W6_v13_1 (c : Dev nD) : W6 m ρ c (Proc.devRef .tc main_v13_1)
    = linScaled (m ((c : Thread nD τ).loc main_arg0)) (m ((c : Thread nD τ).loc main_arg1))
        (shapeCast S1x64 (m ((c : Thread nD τ).loc main_arg2)) shapeCasts_S64_S1x64)
        (shapeCast S100000x1 (degNorm (F := Ideal) (m ((c : Thread nD τ).loc main_arg3))) shapeCasts_S100000_S100000x1) := by
  refine (W6_arr m ρ c 5).trans ((h5 (V5 m ρ) c).trans ?_)
  show linScaled (W5 m ρ c (Proc.devRef .tc main_arg0)) (W5 m ρ c (Proc.devRef .tc main_arg1)) (W5 m ρ c (Proc.devRef .tc main_v11))
    (W5 m ρ c (Proc.devRef .tc main_v12)) = _
  rw [W5_arg0, W5_arg1, W5_v11, W5_v12]

end FirstRegion

/-! ## The result array -/

/-- After the run's last segment the result array holds `result` of the launch arguments. -/
theorem result_eq
    (h4 : ∀ (V : (c : Dev nD) → (b : Ref sig .tc) → Buf (Elt Ideal) ((c : Thread nD τ).loc b)) (c : Dev nD),
      (dat0 V c).arrAt 4 cfg0.N = lin (V c main_arg0) (V c main_arg1) (V c main_v11))
    (h5 : ∀ (V : (c : Dev nD) → (b : Ref sig .tc) → Buf (Elt Ideal) ((c : Thread nD τ).loc b)) (c : Dev nD),
      (dat0 V c).arrAt 5 cfg0.N = linScaled (V c main_arg0) (V c main_arg1) (V c main_v11) (V c main_v12))
    (c : Dev nD) :
    W8 m ρ c (Proc.devRef .tc main_v25)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W8_arr m ρ c 3).trans ((Blend.final1_3 (V7 m ρ) c).trans ?_)
  show blend (W7 m ρ c (Proc.devRef .tc main_v23)) (W7 m ρ c (Proc.devRef .tc main_v24)) (W7 m ρ c (Proc.devRef .tc main_v13_0)) = _
  rw [W7_v23, W7_v24, W7_v13_0, W6_v13_0 m ρ h4, W6_v13_1 m ρ h5, W6_arg3, W6_arg4, W6_v10]
  unfold result
  rfl

end Cert.KernelIdeal.Chain

end
-- ==== Proof.RefValue.lean ====
/-
  The reference computes the kernel's function.

  Stage by stage the reference is: the linear layer `X · Wᵀ + b`; that times the source-side degree norm, row by row; the
  rows gathered by source and scatter-added by destination; that times the destination-side degree norm, row by row;
  and `c₁ ·` that `+ c₂ ·` the linear layer. The kernel's function has the same linear layer (a product with the weights
  transposed is the sum over the shared axis of feature times weight), the same degree norms, wrapped index, gather and
  scatter-add (the same terms, carried whole), and blends as `(c₁ · agg) · nd + c₂ · h` where the reference has
  `c₁ · (agg · nd) + c₂ · h`: one function, by associativity of the product on the extended reals, which holds with
  infinities too, so no finiteness of the inputs is used.
-/
import proofs.«125284_j29506425323819_1_alg».proof.Proof.Gen.ReferenceIdeal.Run
import proofs.«125284_j29506425323819_1_alg».proof.Proof.Gen.ReferenceIdeal.Read
import proofs.«125284_j29506425323819_1_alg».proof.Proof.HostChain
import proofs.«125284_j29506425323819_1_alg».proof.Proof.Spec
import proofs.«125284_j29506425323819_1_alg».proof.Proof.LibColumn
import Idealize.ShloMosaic.Lib.ValueIdx
import Idealize.ShloMosaic.Lib.ValueLayout

noncomputable section

open Idealize.ShloMosaic Idealize.ShloMosaic.ValueIdx
open scoped BigOperators

namespace Cert.ReferenceIdeal.RefValue

open Cert.ReferenceIdeal Cert.ReferenceIdeal.Read Cert.Appnp Cert.LibColumn

variable (X : (⟨S100000x512, .f32⟩ : BufTy).Contents (Elt Ideal)) (Wt : (⟨S64x512, .f32⟩ : BufTy).Contents (Elt Ideal))
  (b : (⟨S64, .f32⟩ : BufTy).Contents (Elt Ideal)) (src dst : (⟨S3200000, .i32⟩ : BufTy).Contents (Elt Ideal))

/-- The reference's linear layer is `lin`: at `(n, q)` the product with the transposed weights is `∑ₖ X[n,k] · W[q,k]`,
    and the bias broadcast down the rows is the bias row at `q`. -/
theorem lin_eq : val_main_v4 (F := Ideal) X Wt b
    = lin X Wt (shapeCast Cert.KernelIdeal.S1x64 b Cert.KernelIdeal.Gen.shapeCasts_S64_S1x64) := by
  funext i
  obtain ⟨n, q, rfl⟩ : ∃ (n : Fin 100000) (q : Fin 64), i = ix2 n q := ⟨i 0, i 1, eq_ix2 i⟩
  rw [val_main_v4_apply, val_main_v1_apply, val_main_v3_apply, val_main_v2_apply]
  unfold lin
  show (∑ k : Fin 512, X (lidx_main_v1 (ix2 n q) k) * val_main_v0 (F := Ideal) Wt (ridx_main_v1 (ix2 n q) k))
      + b (idx_main_v2 (idx_main_v3 (ix2 n q)))
    = (∑ k : Fin 512, X (ix2 n k) * Wt (ix2 q k))
      + shapeCast Cert.KernelIdeal.S1x64 b Cert.KernelIdeal.Gen.shapeCasts_S64_S1x64 (ix2 (0 : Fin 1) q)
  refine congrArg₂ (· + ·) (Finset.sum_congr rfl fun k _ => ?_) ?_
  · rw [val_main_v0_apply]
    refine congrArg₂ (· * ·) (congrArg X ?_) (congrArg Wt ?_)
    · exact funext fun a => Fin.ext (by match a with | ⟨0, _⟩ => rfl | ⟨1, _⟩ => rfl)
    · exact funext fun a => Fin.ext (by match a with | ⟨0, _⟩ => rfl | ⟨1, _⟩ => rfl)
  · refine ((shapeCast_a_1a_apply b _ (0 : Fin 1) q).trans (congrArg b ?_)).symm
    exact funext fun a => Fin.ext (by match a with | ⟨0, _⟩ => rfl)

/-- The reference's degree norms are the kernel's: the same operations on the same index vector. -/
theorem degNorm_src {F : FTy → Type} [FloatOps F] (ix : (⟨S3200000, .i32⟩ : BufTy).Contents (Elt F)) :
    val_main_v13 (F := F) ix = Cert.KernelIdeal.Chain.degNorm (F := F) ix := rfl
theorem degNorm_dst {F : FTy → Type} [FloatOps F] (ix : (⟨S3200000, .i32⟩ : BufTy).Contents (Elt F)) :
    val_main_v15 (F := F) ix = Cert.KernelIdeal.Chain.degNorm (F := F) ix := rfl

/-- The reference's scaled linear layer is `linScaled` with the source-side degree norm as its column. -/
theorem scaled_eq : val_main_v18 (F := Ideal) X Wt b src
    = linScaled X Wt (shapeCast Cert.KernelIdeal.S1x64 b Cert.KernelIdeal.Gen.shapeCasts_S64_S1x64)
        (shapeCast Cert.KernelIdeal.S100000x1 (Cert.KernelIdeal.Chain.degNorm (F := Ideal) src) Cert.KernelIdeal.Gen.shapeCasts_S100000_S100000x1) := by
  funext i
  obtain ⟨n, q, rfl⟩ : ∃ (n : Fin 100000) (q : Fin 64), i = ix2 n q := ⟨i 0, i 1, eq_ix2 i⟩
  rw [val_main_v18_apply, val_main_v17_apply, val_main_v16_apply, lin_eq, degNorm_src]
  unfold linScaled
  show lin X Wt _ (ix2 n q) * Cert.KernelIdeal.Chain.degNorm (F := Ideal) src (idx_main_v16 (idx_main_v17 (ix2 n q)))
    = lin X Wt _ (ix2 n q) * shapeCast Cert.KernelIdeal.S100000x1 (Cert.KernelIdeal.Chain.degNorm (F := Ideal) src) _ (ix2 n (0 : Fin 1))
  rw [shapeCast_a_a1_apply,
    show idx_main_v16 (idx_main_v17 (ix2 n q)) = ix1 n from funext fun a => Fin.ext (by match a with | ⟨0, _⟩ => rfl)]

/-- The reference gathers and scatter-adds as the kernel's program does: the same terms. -/
theorem agg_eq {F : FTy → Type} [FloatOps F] (x0 : (⟨S100000x512, .f32⟩ : BufTy).Contents (Elt F))
    (x1 : (⟨S64x512, .f32⟩ : BufTy).Contents (Elt F)) (x2 : (⟨S64, .f32⟩ : BufTy).Contents (Elt F))
    (x3 x4 : (⟨S3200000, .i32⟩ : BufTy).Contents (Elt F)) :
    val_main_v28 (F := F) x0 x1 x2 x3 x4
      = Cert.KernelIdeal.Chain.aggregate (F := F) x3 x4 (val_main_v18 (F := F) x0 x1 x2 x3) := rfl

/-- The reference's result is the kernel's `result`. -/
theorem result_eq : val_main_v36 (F := Ideal) X Wt b src dst = Cert.KernelIdeal.Chain.result X Wt b src dst := by
  funext i
  obtain ⟨n, q, rfl⟩ : ∃ (n : Fin 100000) (q : Fin 64), i = ix2 n q := ⟨i 0, i 1, eq_ix2 i⟩
  rw [val_main_v36_apply, val_main_v33_apply, val_main_v35_apply, val_main_v31_apply, val_main_v32_apply,
    val_main_v34_apply, val_main_cst_6_apply, val_main_cst_7_apply, val_main_v30_apply, val_main_v29_apply,
    agg_eq, scaled_eq, lin_eq, degNorm_dst]
  unfold Cert.KernelIdeal.Chain.result blend
  rw [show (ix2 (ix2 n q 0) (0 : Fin 1) : Cert.KernelIdeal.S100000x1.Idx) = ix2 n (0 : Fin 1) from rfl,
    shapeCast_a_a1_apply,
    show idx_main_v29 (idx_main_v30 (ix2 n q)) = ix1 n from funext fun a => Fin.ext (by match a with | ⟨0, _⟩ => rfl)]
  simp only [Ideal.addf_def, Ideal.mulf_def]
  rw [mul_assoc]

end Cert.ReferenceIdeal.RefValue

end
-- ==== Proof.lean ====
/-
  The certificate of the graph propagation kernel against its reference.

  Both programs compute, for node `n` and class `q`,
  `h[n,q] = ∑ₖ X[n,k] · W[q,k] + b[q]`, the degree norms `ns`, `nd` (one over the square root of each node's count among
  the source, destination indices, the count clamped below by one), the aggregate
  `agg = scatter-add by destination of (rows of h · ns gathered by source)`, and a blend of `agg · nd` with `h` by two
  literal weights `c₁`, `c₂`. The kernel forms `h` and `h · ns` in one tiled region, gathers and scatter-adds on the host,
  and blends in a second tiled region as `(c₁ · agg) · nd + c₂ · h`; the reference is host operations throughout and
  blends as `c₁ · (agg · nd) + c₂ · h`. At the ideal values the two are one function: the tiled regions are read back as
  whole-array functions, the host parts are the same terms on both sides, and the two blends differ by associativity
  of the product, which holds on the extended reals with infinities too. The precondition is not used by the value
  claim.

  The three frames: the kernel's two programs by their run over the segments of @main, the reference's by its run with
  the result dropped. The idealization rewrote no operation, so there is nothing to preserve.
-/
import proofs.«125284_j29506425323819_1_alg».proof.Defs
import proofs.«125284_j29506425323819_1_alg».proof.Proof.Gen.Kernel
import proofs.«125284_j29506425323819_1_alg».proof.Proof.Gen.Kernel.Skeleton
import proofs.«125284_j29506425323819_1_alg».proof.Proof.Gen.Kernel.Launch
import proofs.«125284_j29506425323819_1_alg».proof.Proof.Gen.Kernel.Points
import proofs.«125284_j29506425323819_1_alg».proof.Proof.Gen.Kernel.Frame
import proofs.«125284_j29506425323819_1_alg».proof.Proof.Gen.KernelIdeal
import proofs.«125284_j29506425323819_1_alg».proof.Proof.Gen.KernelIdeal.Skeleton
import proofs.«125284_j29506425323819_1_alg».proof.Proof.Gen.KernelIdeal.Launch
import proofs.«125284_j29506425323819_1_alg».proof.Proof.Gen.KernelIdeal.Points
import proofs.«125284_j29506425323819_1_alg».proof.Proof.Gen.KernelIdeal.Frame
import proofs.«125284_j29506425323819_1_alg».proof.Proof.Gen.ReferenceIdeal
import proofs.«125284_j29506425323819_1_alg».proof.Proof.Gen.ReferenceIdeal.Run
import proofs.«125284_j29506425323819_1_alg».proof.Proof.Gen.ReferenceIdeal.Read
import proofs.«125284_j29506425323819_1_alg».proof.Proof.Gen.Pre_finite_inputs
import proofs.«125284_j29506425323819_1_alg».proof.Proof.KRun
import proofs.«125284_j29506425323819_1_alg».proof.Proof.LinScale
import proofs.«125284_j29506425323819_1_alg».proof.Proof.HostChain
import proofs.«125284_j29506425323819_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel's result array ends at `result` of its arguments, and so does the reference's, from
    arguments that agree. -/
theorem algebraic : Cert.algebraic_KernelIdeal_ReferenceIdeal := by
  intro m ρ m' ρ' _ hagree
  refine ⟨fun c => Cert.KernelIdeal.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result_eq m ρ
          Cert.KernelIdeal.Hand.final0_4 Cert.KernelIdeal.Hand.final0_5 c), (h c).2⟩)
      (Cert.KernelIdeal.ValueRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    rw [e0, e1, e2, e3, e4, Cert.ReferenceIdeal.Read.val_main_v36_eq]
    exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
